-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x32 : Shape := ⟨3, ![8, 4096, 32]⟩
abbrev S8x4096 : Shape := ⟨2, ![8, 4096]⟩
abbrev S10x32 : Shape := ⟨2, ![10, 32]⟩
abbrev S_ : Shape := ⟨0, ![]⟩

class Facts : Prop where
  bcast_S_S8x4096x32 : S_.BroadcastsInDim S8x4096x32 (![] : Fin 0 → Fin S8x4096x32.rank)
  reducesTo_S8x4096x32_S_d0_1_2 : S8x4096x32.ReducesTo [0, 1, 2] S_
  h_S_ : 0 < S_.numel
  bcast_S_S10x32 : S_.BroadcastsInDim S10x32 (![] : Fin 0 → Fin S10x32.rank)
  reducesTo_S10x32_S_d0_1 : S10x32.ReducesTo [0, 1] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg2 : IVec S8x4096 32) (main_v13 : IVec S_ 1) (main_v15 : IVec S8x4096 1) (main_c_5 : IVec S_ 32) : IVec S_ 1 :=
  let main_v16 : IVec S8x4096 32 := broadcastInDim S8x4096 ![] bcast_S_S8x4096 main_c_5
  let main_v17 : IVec S8x4096 1 := cmpi .slt main_arg2 main_v16
  let main_v18 : IVec S8x4096 1 := andi main_v15 main_v17
  let main_c_6 : IVec S_ 1 := constantI S_ 1 1#1
  let main_v19 : IVec S_ 1 := (fun x v => Host.reduce IntOp.andi x v reducesTo_S8x4096_S_d0_1 h_S_) main_v18 main_c_6
  let main_v20 : IVec S_ 1 := andi main_v13 main_v19
  main_v20

def fn {F : FTy → Type} [FloatOps F] (main_arg0 : FVec F S8x4096x32 .f32) (main_arg1 : FVec F S8x4096x32 .f32) (main_arg2 : IVec S8x4096 32) (main_arg3 : FVec F S10x32 .f32) : IVec S_ 1 :=
  let main_v0 : FVec F S8x4096x32 .f32 := Host.absf main_arg0
  let main_cst : FVec F S_ .f32 := constant S_ .f32 0x7F800000#32
  let main_v1 : FVec F S8x4096x32 .f32 := broadcastInDim S8x4096x32 ![] bcast_S_S8x4096x32 main_cst
  let main_v2 : IVec S8x4096x32 1 := cmpf .olt main_v0 main_v1
  let main_c : IVec S_ 1 := constantI S_ 1 1#1
  let main_v3 : IVec S_ 1 := (fun x v => Host.reduce IntOp.andi x v reducesTo_S8x4096x32_S_d0_1_2 h_S_) main_v2 main_c
  let main_v4 : FVec F S8x4096x32 .f32 := Host.absf main_arg1
  let main_cst_0 : FVec F S_ .f32 := constant S_ .f32 0x7F800000#32
  let main_v5 : FVec F S8x4096x32 .f32 := broadcastInDim S8x4096x32 ![] bcast_S_S8x4096x32 main_cst_0
  let main_v6 : IVec S8x4096x32 1 := cmpf .olt main_v4 main_v5
  let main_c_1 : IVec S_ 1 := constantI S_ 1 1#1
  let main_v7 : IVec S_ 1 := (fun x v => Host.reduce IntOp.andi x v reducesTo_S8x4096x32_S_d0_1_2 h_S_) main_v6 main_c_1
  let main_v8 : IVec S_ 1 := andi main_v3 main_v7
  let main_v9 : FVec F S10x32 .f32 := Host.absf main_arg3
  let main_cst_2 : FVec F S_ .f32 := constant S_ .f32 0x7F800000#32
  let main_v10 : FVec F S10x32 .f32 := broadcastInDim S10x32 ![] bcast_S_S10x32 main_cst_2
  let main_v11 : IVec S10x32 1 := cmpf .olt main_v9 main_v10
  let main_c_3 : IVec S_ 1 := constantI S_ 1 1#1
  let main_v12 : IVec S_ 1 := (fun x v => Host.reduce IntOp.andi x v reducesTo_S10x32_S_d0_1 h_S_) main_v11 main_c_3
  let main_v13 : IVec S_ 1 := andi main_v8 main_v12
  let main_c_4 : IVec S_ 32 := constantI S_ 32 0#32
  let main_v14 : IVec S8x4096 32 := broadcastInDim S8x4096 ![] bcast_S_S8x4096 main_c_4
  let main_v15 : IVec S8x4096 1 := cmpi .sge main_arg2 main_v14
  let main_c_5 : IVec S_ 32 := constantI S_ 32 10#32
  fn_part1 (F := F) main_arg2 main_v13 main_v15 main_c_5
-- ==== Kernel.lean ====
abbrev S8x4096x32 : Shape := ⟨3, ![8, 4096, 32]⟩
abbrev S8x4096 : Shape := ⟨2, ![8, 4096]⟩
abbrev S10x32 : Shape := ⟨2, ![10, 32]⟩
abbrev S8x4096x1 : Shape := ⟨3, ![8, 4096, 1]⟩
abbrev S1x512x32 : Shape := ⟨3, ![1, 512, 32]⟩
abbrev S1x4096x32 : Shape := ⟨3, ![1, 4096, 32]⟩
abbrev S1x4096x1 : Shape := ⟨3, ![1, 4096, 1]⟩
abbrev S4096x32 : Shape := ⟨2, ![4096, 32]⟩
abbrev S4096x1 : Shape := ⟨2, ![4096, 1]⟩
abbrev S4096x10 : Shape := ⟨2, ![4096, 10]⟩
abbrev S512x32 : Shape := ⟨2, ![512, 32]⟩
abbrev S32x4096 : Shape := ⟨2, ![32, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8x4096x32, .f32⟩
  | .hbm, ⟨1, _⟩ => ⟨S8x4096x32, .f32⟩
  | .hbm, ⟨2, _⟩ => ⟨S8x4096, .i32⟩
  | .hbm, ⟨3, _⟩ => ⟨S10x32, .f32⟩
  | .hbm, ⟨4, _⟩ => ⟨S8x4096x1, .i32⟩
  | .hbm, ⟨5, _⟩ => ⟨S8x4096x32, .f32⟩
  | .local _ .vmem, ⟨0, _⟩ => ⟨S1x512x32, .f32⟩
  | .local _ .vmem, ⟨1, _⟩ => ⟨S1x512x32, .f32⟩
  | .local _ .vmem, ⟨2, _⟩ => ⟨S1x4096x32, .f32⟩
  | .local _ .vmem, ⟨3, _⟩ => ⟨S1x4096x32, .f32⟩
  | .local _ .vmem, ⟨4, _⟩ => ⟨S1x4096x1, .i32⟩
  | .local _ .vmem, ⟨5, _⟩ => ⟨S1x4096x1, .i32⟩
  | .local _ .vmem, ⟨6, _⟩ => ⟨S10x32, .f32⟩
  | .local _ .vmem, ⟨7, _⟩ => ⟨S1x512x32, .f32⟩
  | .local _ .vmem, ⟨8, _⟩ => ⟨S1x512x32, .f32⟩
  | .local _ .vmem, ⟨9, _⟩ => ⟨S4096x32, .bf16⟩
  | _, _ => ⟨S8x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S10x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x4096_S8x4096x1 : S8x4096.ShapeCasts S8x4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  iota_S4096x10_d1_w32 : S4096x10.Iotas .tc 32 [1]
  broadcasts_S4096x1_S4096x10 : S4096x1.Broadcasts S4096x10
  natLt_1_32 : 1 < 32
  inb_S10x32_S10x32_0_0 : ∀ a, (![0, 0] : Fin 2 → Nat) a + S10x32.size a ≤ S10x32.size a
  h_S10x32 : 0 < S10x32.numel
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  packedbf16_S4096x32_S4096x32_0_0 : (Rect.unit (s := S4096x32) ![0, 0] S4096x32.size inb_S4096x32_S4096x32_0_0).PackedRows (EltTy.packing .bf16)
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  transposes_S4096x32_p1_0_S32x4096 : S4096x32.Transposes [1, 0] S32x4096
  reduces_S512x4096_S512 : S512x4096.Reduces [1] S512
  shapeCasts_S512_S512x1 : S512.ShapeCasts S512x1
  broadcasts_S512x1_S512x4096 : S512x1.Broadcasts S512x4096
  broadcasts_S512x1_S512x32 : S512x1.Broadcasts S512x32
  shapeCasts_S512x32_S1x512x32 : S512x32.ShapeCasts S1x512x32
  dot_S4096x10_S10x32_S4096x32_1_0_0_1_n_n_wf : DotDims.WF S4096x10 S10x32 S4096x32 [1] [0] [0] [1] [] []
  dot_S512x32_S32x4096_S512x4096_1_0_0_1_n_n_wf : DotDims.WF S512x32 S32x4096 S512x4096 [1] [0] [0] [1] [] []
  dot_S512x4096_S4096x32_S512x32_1_0_0_1_n_n_wf : DotDims.WF S512x4096 S4096x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32.size a ≤ S8x4096x32.size a
  hwx0_0 : ∀ i : grid0.Coords, EltTy.bits .f32 = 32 ∨ (Rect.block (s := S8x4096x32) S1x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x32.size a ≤ S8x4096x32.size a
  hwx0_1 : ∀ i : grid0.Coords, EltTy.bits .f32 = 32 ∨ (Rect.block (s := S8x4096x32) S1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S8x4096x1.size a
  hwx0_2 : ∀ i : grid0.Coords, EltTy.bits .i32 = 32 ∨ (Rect.block (s := S8x4096x1) S1x4096x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x32.size a ≤ S10x32.size a
  hwx0_3 : ∀ i : grid0.Coords, EltTy.bits .f32 = 32 ∨ (Rect.block (s := S10x32) S10x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x32.size a ≤ S8x4096x32.size a
  hwx0_4 : ∀ i : grid0.Coords, EltTy.bits .f32 = 32 ∨ (Rect.block (s := S8x4096x32) S1x512x32.size (cc0_transform_4 i) (hinb0_4 i)).WholeWords (EltTy.packing .f32)

variable [Facts₀]

def dot_S4096x10_S10x32_S4096x32_1_0_0_1_n_n : DotDims S4096x10 S10x32 S4096x32 where
  lhsContracting := [1]
  rhsContracting := [0]
  lhsNonContracting := [0]
  rhsNonContracting := [1]
  lhsBatch := []
  rhsBatch := []
  wf := dot_S4096x10_S10x32_S4096x32_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf

abbrev win0_0 : Pipeline.Window sig grid0 :=
  Pipeline.Window.ofSpec (Memref.whole main_arg0) S1x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x32 : Shape := ⟨3, ![8, 4096, 32]⟩
abbrev S8x4096 : Shape := ⟨2, ![8, 4096]⟩
abbrev S10x32 : Shape := ⟨2, ![10, 32]⟩
abbrev S_ : Shape := ⟨0, ![]⟩
abbrev S8x4096x1 : Shape := ⟨3, ![8, 4096, 1]⟩
abbrev S8x4096x4096 : Shape := ⟨3, ![8, 4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x32, .f32⟩
  | .hbm, ⟨1, _⟩ => ⟨S8x4096x32, .f32⟩
  | .hbm, ⟨2, _⟩ => ⟨S8x4096, .i32⟩
  | .hbm, ⟨3, _⟩ => ⟨S10x32, .f32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S_, .i32⟩
  | .hbm, ⟨8, _⟩ => ⟨S8x4096, .i32⟩
  | .hbm, ⟨9, _⟩ => ⟨S8x4096, .i32⟩
  | .hbm, ⟨10, _⟩ => ⟨S8x4096, .i32⟩
  | .hbm, ⟨11, _⟩ => ⟨S8x4096x1, .i32⟩
  | .hbm, ⟨12, _⟩ => ⟨S8x4096x32, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x32, .f32⟩
  | _, _ => ⟨S8x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S8x4096x1_S8x4096x4096_0_1_2 : S8x4096x1.BroadcastsInDim S8x4096x4096 (![0, 1, 2] : Fin 3 → Fin S8x4096x4096.rank)
  gather_S10x32_S8x4096x1_S8x4096x32_2_0_n_n_0_2_132_wf : GatherDims.WF S10x32 S8x4096x1 S8x4096x32 [2] [0] [] [0] [] 2 ![1, 32]
  dot_S8x4096x32_S8x4096x32_S8x4096x4096_2_2_1_1_0_0_wf : DotDims.WF S8x4096x32 S8x4096x32 S8x4096x4096 [2] [2] [1] [1] [0] [0]
  dot_S8x4096x4096_S8x4096x32_S8x4096x32_2_1_1_2_0_0_wf : DotDims.WF S8x4096x4096 S8x4096x32 S8x4096x32 [2] [1] [1] [2] [0] [0]

variable [Facts₀]

def gather_S10x32_S8x4096x1_S8x4096x32_2_0_n_n_0_2_132 : GatherDims S10x32 S8x4096x1 S8x4096x32 where
  offsetDims := [2]
  collapsedSliceDims := [0]
  operandBatchingDims := []
  startIndicesBatchingDims := []
  startIndexMap := [0]
  indexVectorDim := 2
  sliceSizes := ![1, 32]
  wf := gather_S10x32_S8x4096x1_S8x4096x32_2_0_n_n_0_2_132_wf
def dot_S8x4096x32_S8x4096x32_S8x4096x4096_2_2_1_1_0_0 : DotDims S8x4096x32 S8x4096x32 S8x4096x4096 where
  lhsContracting := [2]
  rhsContracting := [2]
  lhsNonContracting := [1]
  rhsNonContracting := [1]
  lhsBatch := [0]
  rhsBatch := [0]
  wf := dot_S8x4096x32_S8x4096x32_S8x4096x4096_2_2_1_1_0_0_wf
def dot_S8x4096x4096_S8x4096x32_S8x4096x32_2_1_1_2_0_0 : DotDims S8x4096x4096 S8x4096x32 S8x4096x32 where
  lhsContracting := [2]
  rhsContracting := [1]
  lhsNonContracting := [1]
  rhsNonContracting := [2]
  lhsBatch := [0]
  rhsBatch := [0]
  wf := dot_S8x4096x4096_S8x4096x32_S8x4096x32_2_1_1_2_0_0_wf

class Facts : Prop extends Facts₀ where

variable [Facts]
-- ==== Proof.KPieces.lean ====
/-
  What one grid point leaves behind, as values of the blocks it was handed.

  At the first query tile of a batch the body stores the embedded value rows (the one-hot weights of the codes times
  the table) into its scratch, then computes the attention block from the scratch it has just filled; at every other
  tile it leaves the scratch alone and computes the attention block from what the scratch already holds.
-/
import proofs.«426676_j39676907884462_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the scratch ends holding the embedded value rows of the batch's codes. -/
theorem sout_A (c : Dev nD) (i : grid0.Coords) (arg2 : Memref sig .tc .vmem S1x512x32 .f32) (harg2 : arg2.IsWhole) (arg3 : Memref sig .tc .vmem S1x4096x32 .f32) (harg3 : arg3.IsWhole) (arg4 : Memref sig .tc .vmem S1x4096x1 .i32) (harg4 : arg4.IsWhole) (arg5 : Memref sig .tc .vmem S10x32 .f32) (harg5 : arg5.IsWhole) (arg6 : Memref sig .tc .vmem S1x512x32 .f32) (harg6 : arg6.IsWhole) (arg7 : Memref sig .tc .vmem S4096x32 .bf16) (harg7 : arg7.IsWhole) (hc0 : cond0_0 i)
    (x0 : Vec F S1x512x32 .f32) (x1 : Vec F S1x4096x32 .f32) (x2 : Vec F S1x4096x1 .i32) (x3 : Vec F S10x32 .f32) :
    sout0_A_0 c i arg2 harg2 arg3 harg3 arg4 harg4 arg5 harg5 arg6 harg6 arg7 harg7 hc0 x0 x1 x2 x3 = k0_pay1 x2 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg4.read_unread, harg5.read_unread, View.ld_unit_zero (S := S1x4096x1) hz3,
    View.ld_unit_zero (S := S10x32) hz2]

/-- First tile of a batch: the output block is the attention block computed over the value rows just stored. -/
theorem out_A (c : Dev nD) (i : grid0.Coords) (arg2 : Memref sig .tc .vmem S1x512x32 .f32) (harg2 : arg2.IsWhole) (arg3 : Memref sig .tc .vmem S1x4096x32 .f32) (harg3 : arg3.IsWhole) (arg4 : Memref sig .tc .vmem S1x4096x1 .i32) (harg4 : arg4.IsWhole) (arg5 : Memref sig .tc .vmem S10x32 .f32) (harg5 : arg5.IsWhole) (arg6 : Memref sig .tc .vmem S1x512x32 .f32) (harg6 : arg6.IsWhole) (arg7 : Memref sig .tc .vmem S4096x32 .bf16) (harg7 : arg7.IsWhole) (hc0 : cond0_0 i)
    (x0 : Vec F S1x512x32 .f32) (x1 : Vec F S1x4096x32 .f32) (x2 : Vec F S1x4096x1 .i32) (x3 : Vec F S10x32 .f32) :
    out0_A_4 c i arg2 harg2 arg3 harg3 arg4 harg4 arg5 harg5 arg6 harg6 arg7 harg7 hc0 x0 x1 x2 x3 = k0_pay2 x0 x1 (k0_pay1 x2 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg2.read_unread, harg3.read_unread, harg4.read_unread, harg5.read_unread,
    View.readCov_unit_zero (S := S4096x32) _ hz2, View.ld_unit_zero (S := S1x512x32) hz3,
    View.ld_unit_zero (S := S1x4096x32) hz3, View.ld_unit_zero (S := S1x4096x1) hz3, View.ld_unit_zero (S := S10x32) hz2]

/-- Any other tile: the output block is the attention block computed over what the scratch holds. -/
theorem out_B (c : Dev nD) (i : grid0.Coords) (arg2 : Memref sig .tc .vmem S1x512x32 .f32) (harg2 : arg2.IsWhole) (arg3 : Memref sig .tc .vmem S1x4096x32 .f32) (harg3 : arg3.IsWhole) (arg4 : Memref sig .tc .vmem S1x4096x1 .i32) (harg4 : arg4.IsWhole) (arg5 : Memref sig .tc .vmem S10x32 .f32) (harg5 : arg5.IsWhole) (arg6 : Memref sig .tc .vmem S1x512x32 .f32) (harg6 : arg6.IsWhole) (arg7 : Memref sig .tc .vmem S4096x32 .bf16) (harg7 : arg7.IsWhole) (hc0 : ¬cond0_0 i)
    (x0 : Vec F S1x512x32 .f32) (x1 : Vec F S1x4096x32 .f32) (x2 : Vec F S1x4096x1 .i32) (x3 : Vec F S10x32 .f32) (xs0 : Vec F S4096x32 .bf16) :
    out0_B_4 c i arg2 harg2 arg3 harg3 arg4 harg4 arg5 harg5 arg6 harg6 arg7 harg7 hc0 x0 x1 x2 x3 xs0 = k0_pay2 x0 x1 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg2.read_unread, harg3.read_unread, harg7.read_unread,
    View.ld_unit_zero (S := S1x512x32) hz3, View.ld_unit_zero (S := S1x4096x32) hz3, View.ld_unit_zero (S := S4096x32) hz2]

end Cert.KernelIdeal.Pieces

end
-- ==== Proof.Spec.lean ====
/-
  Single-pass softmax attention over an embedded value table, written index by index in the two arrangements
  the two programs use.

  Inputs: queries q and keys k of shape [8, 4096, 32], integer codes v of shape [8, 4096], a table of shape [10, 32].
  For batch b, query row p, key row j and feature d:

    kernel's arrangement (attn)
      value row      E b j d = Σ i < 10, [v b j = i] · table i d          (one-hot weights times the table)
      score          S b p j = Σ e < 32, (q b p e · 4.5) · k b j e        (the scale folded into q)
      row maximum    M b p   = max over j of S b p j
      weight         W b p j = exp (S b p j − M b p)
      result         (Σ j, W b p j · E b j d) / (Σ j, W b p j)            (normalised after the weighted sum)

    reference's arrangement (refAttn)
      value row      table (row (v b j)) d, the code read as a signed row number, a negative one moved up by 10,
                     then clamped into 0..9
      score          (Σ e, q b p e · k b j e) · 4.5                       (the scale applied to the product)
      row maximum    max of −∞ and the maximum over j
      weight         exp (score − row maximum)
      result         Σ j, (weight j / Σ j', weight j') · value row j d    (normalised before the weighted sum)

  All arithmetic is the exact arithmetic of the extended reals.
-/
import Idealize.ShloMosaic.PureOps.Ideal
import Idealize.ShloMosaic.Lib.ValueIdx

open scoped BigOperators

noncomputable section

namespace Cert.Attn

open Idealize.ShloMosaic Idealize.ShloMosaic.ValueIdx

/-- Queries, keys and results: [8, 4096, 32] extended reals. -/
abbrev Arr3 := FVec Ideal (⟨3, ![8, 4096, 32]⟩ : Shape) .f32
/-- The value table: [10, 32] extended reals. -/
abbrev Tab := FVec Ideal (⟨2, ![10, 32]⟩ : Shape) .f32
/-- The integer codes: [8, 4096] 32-bit words. -/
abbrev Codes := IVec (⟨2, ![8, 4096]⟩ : Shape) 32

/-- The scale 4.5, as the word both programs carry. -/
def scale : EReal := Ideal.ofBits .f32 0x40900000#32
/-- The word for −∞ both programs start their maxima from. -/
def negInf : EReal := Ideal.ofBits .f32 0xFF800000#32

/-! ## The kernel's arrangement -/

/-- The one-hot weight of code w at table row i: 1 when the code is i, else 0. -/
def onehot (w : BitVec 32) (i : Fin 10) : EReal := if w = BitVec.ofNat 32 i.val then 1 else 0

/-- The value row of key (b, j): the one-hot weights of its code times the table. -/
def valueRow (v : Codes) (tab : Tab) (b : Fin 8) (j : Fin 4096) (d : Fin 32) : EReal :=
  ∑ i : Fin 10, onehot (v (ix2 b j)) i * tab (ix2 i d)

/-- The score of query (b, p) against key (b, j), the scale folded into the query. -/
def score (q k : Arr3) (b : Fin 8) (p j : Fin 4096) : EReal :=
  ∑ e : Fin 32, (q (ix3 b p e) * scale) * k (ix3 b j e)

/-- The largest score of a query row. -/
def rowMax (q k : Arr3) (b : Fin 8) (p : Fin 4096) : EReal :=
  (Finset.univ : Finset (Fin 4096)).fold max negInf (fun j => score q k b p j)

/-- The unnormalised softmax weight. -/
def weight (q k : Arr3) (b : Fin 8) (p j : Fin 4096) : EReal :=
  Ideal.exp (score q k b p j - rowMax q k b p)

/-- The kernel's result: the weighted sum of the value rows, divided by the total weight. -/
def attn (q k : Arr3) (v : Codes) (tab : Tab) : Arr3 := fun i =>
  Ideal.div (∑ j : Fin 4096, weight q k (i 0) (i 1) j * valueRow v tab (i 0) j (i 2))
    (∑ j : Fin 4096, weight q k (i 0) (i 1) j)

/-! ## The reference's arrangement -/

/-- The code as the reference reads it: a negative one moved up by 10. -/
def wrapCode (w : BitVec 32) : BitVec 32 :=
  Scalar.select (IntOp.cmpi .slt w 0#32) (IntOp.addi w 10#32) w

/-- The table row the reference's gather reads for a code: signed, clamped into 0..9. -/
def rowOf (w : BitVec 32) : Fin 10 := ⟨min (wrapCode w).toInt.toNat 9, by omega⟩

/-- The score with the scale applied to the finished product. -/
def refScore (q k : Arr3) (b : Fin 8) (p j : Fin 4096) : EReal :=
  (∑ e : Fin 32, q (ix3 b p e) * k (ix3 b j e)) * scale

/-- The reference's row maximum: −∞ against the maximum over the keys. -/
def refRowMax (q k : Arr3) (b : Fin 8) (p : Fin 4096) : EReal :=
  max negInf ((Finset.univ : Finset (Fin 4096)).fold max negInf (fun j => refScore q k b p j))

/-- The reference's unnormalised weight. -/
def refWeight (q k : Arr3) (b : Fin 8) (p j : Fin 4096) : EReal :=
  Ideal.exp (refScore q k b p j - refRowMax q k b p)

/-- The reference's result: each weight normalised by the total, then the weighted sum of the gathered rows. -/
def refAttn (q k : Arr3) (v : Codes) (tab : Tab) : Arr3 := fun i =>
  ∑ j : Fin 4096, Ideal.div (refWeight q k (i 0) (i 1) j) (∑ j' : Fin 4096, refWeight q k (i 0) (i 1) j')
    * tab (ix2 (rowOf (v (ix2 (i 0) j))) (i 2))

end Cert.Attn

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KPay.lean ====
/-
  The body's two stored values, read at an entry, over the extended reals.

  The value rows (stored to the scratch): entry (r, d) is Σ i < 10, [code r = i] · table i d.
  The attention block: with S j = Σ e, (q p e · 4.5) · k j e, M = max over j of S j and W j = exp (S j − M),
  entry (p, d) is (Σ j, W j · rows j d) / (Σ j, W j), the rows being whatever the scratch holds.
-/
import proofs.«426676_j39676907884462_2_alg».proof.Proof.Gen.KernelIdeal.Skeleton
import proofs.«426676_j39676907884462_2_alg».proof.Proof.Spec
import proofs.«426676_j39676907884462_2_alg».proof.Proof.LibPlainDot
import Idealize.ShloMosaic.Lib.Pipeline.Value
import Idealize.ShloMosaic.Lib.ValueIdx
import Idealize.ShloMosaic.PureOps.Ideal.Laws

open scoped BigOperators

noncomputable section

open Idealize.ShloMosaic Idealize.ShloMosaic.ValueIdx

namespace Cert.KernelIdeal.Pay

open Cert.KernelIdeal Cert.KernelIdeal.Gen

/-! ## Layout steps at coordinates -/

/-- Dropping the leading unit axis of a [1, a, b] block: entry (p, e) is the block's (0, p, e). -/
theorem dropUnit_apply {α : Type} {n1 n2 : Nat} (v : (⟨3, ![1, n1, n2]⟩ : Shape).Idx → α)
    (h : (⟨3, ![1, n1, n2]⟩ : Shape).ShapeCasts ⟨2, ![n1, n2]⟩) (p : Fin n1) (e : Fin n2) :
    shapeCast ⟨2, ![n1, n2]⟩ v h (ix2 p e) = v (ix3 0 p e) := by
  refine (shapeCast_dropUnit_apply ![n1, n2] v h (ix2 p e)).trans (congrArg v ?_)
  funext a
  match a with
  | ⟨0, _⟩ => rfl
  | ⟨1, _⟩ => rfl
  | ⟨2, _⟩ => rfl

/-- Adding a leading unit axis to an [a, b] value: entry (0, p, e) is the value's (p, e). -/
theorem addUnit_apply {α : Type} {n1 n2 : Nat} (v : (⟨2, ![n1, n2]⟩ : Shape).Idx → α)
    (h : (⟨2, ![n1, n2]⟩ : Shape).ShapeCasts ⟨3, ![1, n1, n2]⟩) (p : Fin n1) (e : Fin n2) :
    shapeCast ⟨3, ![1, n1, n2]⟩ v h (ix3 0 p e) = v (ix2 p e) := by
  refine (shapeCast_addUnit_apply ![n1, n2] v h (ix3 0 p e)).trans (congrArg v ?_)
  funext a
  match a with
  | ⟨0, _⟩ => rfl
  | ⟨1, _⟩ => rfl

/-- A per-row value kept as a column and spread along the rows: entry (p, j) is the row's value. -/
theorem spread_apply {α : Type} {n : Nat} (hn : n ≠ 1) (x : (⟨1, ![512]⟩ : Shape).Idx → α)
    (h1 : (⟨1, ![512]⟩ : Shape).ShapeCasts ⟨2, ![512, 1]⟩) (h2 : (⟨2, ![512, 1]⟩ : Shape).Broadcasts ⟨2, ![512, n]⟩)
    (p : Fin 512) (j : Fin n) :
    broadcastTo ⟨2, ![512, n]⟩ (shapeCast ⟨2, ![512, 1]⟩ x h1) h2 (ix2 p j) = x (ix1 p) := by
  refine (broadcastTo_apply _ h2 (ix2 p j) (ix2 p (0 : Fin 1)) fun a => ?_).trans ?_
  · match a with
    | ⟨0, _⟩ => show p.val = if (512 : Nat) = 1 then 0 else p.val; rw [if_neg (by decide)]
    | ⟨1, _⟩ => show 0 = if (1 : Nat) = 1 then 0 else j.val; rw [if_pos rfl]
  · refine shapeCast_apply x h1 (ix2 p (0 : Fin 1)) (ix1 p) ?_
    rw [Shape.rowMajor_val_one, Shape.rowMajor_val_two]
    show p.val = p.val * 1 + 0
    omega

/-- The index a reduction over the key axis reads for row p and key j. -/
theorem lift_eq (p : Fin 512) (j : Fin 4096) : reduces_S512x4096_S512.lift (ix1 p) j = ix2 p j :=
  funext fun a => Fin.ext (by match a with | ⟨0, _⟩ => rfl | ⟨1, _⟩ => rfl)

/-- The three printed products are plain row-by-column products. -/
theorem dotE : dot_S4096x10_S10x32_S4096x32_1_0_0_1_n_n = DotDims.plain 4096 10 32 := rfl
theorem dotS : dot_S512x32_S32x4096_S512x4096_1_0_0_1_n_n = DotDims.plain 512 32 4096 := rfl
theorem dotO : dot_S512x4096_S4096x32_S512x32_1_0_0_1_n_n = DotDims.plain 512 4096 32 := rfl

/-! ## The value rows -/

/-- The one-hot weight the body forms for code row r and table row i. -/
theorem onehot_apply (x2 : Vec Ideal S1x4096x1 .i32) (r : Fin 4096) (i : Fin 10) :
    (sitofp .f32 (extui 32 (cmpi .eq (broadcastTo S4096x10 (shapeCast S4096x1 x2 shapeCasts_S1x4096x1_S4096x1) broadcasts_S4096x1_S4096x10)
      (iota .tc S4096x10 32 [1] iota_S4096x10_d1_w32)) natLt_1_32) : FVec Ideal S4096x10 .f32) (ix2 r i)
      = Cert.Attn.onehot (x2 (ix3 0 r 0)) i := by
  rw [sitofp_apply, extui_apply]
  show FloatOps.sitofp .f32 ((IntOp.cmpi .eq (broadcastTo S4096x10 (shapeCast S4096x1 x2 _) _ (ix2 r i)) (iota .tc S4096x10 32 [1] _ (ix2 r i))).setWidth 32) = _
  rw [iota_single_apply]
  have hb : broadcastTo S4096x10 (shapeCast S4096x1 x2 shapeCasts_S1x4096x1_S4096x1) broadcasts_S4096x1_S4096x10 (ix2 r i) = x2 (ix3 0 r 0) := by
    refine (broadcastTo_apply _ broadcasts_S4096x1_S4096x10 (ix2 r i) (ix2 r (0 : Fin 1)) fun a => ?_).trans ?_
    · match a with
      | ⟨0, _⟩ => show r.val = if (4096 : Nat) = 1 then 0 else r.val; rw [if_neg (by decide)]
      | ⟨1, _⟩ => show 0 = if (1 : Nat) = 1 then 0 else i.val; rw [if_pos rfl]
    · exact dropUnit_apply x2 shapeCasts_S1x4096x1_S4096x1 r 0
  rw [hb]
  show (((BitVec.setWidth 32 (IntOp.cmpi .eq (x2 (ix3 0 r 0)) (BitVec.ofNat 32 i.val))).toInt : ℝ) : EReal) = _
  unfold Cert.Attn.onehot IntOp.cmpi
  by_cases h : x2 (ix3 0 r 0) = BitVec.ofNat 32 i.val
  · rw [if_pos h, h]
    simp
  · rw [if_neg h]
    have hne : (x2 (ix3 0 r 0) == BitVec.ofNat 32 i.val) = false := by simpa using h
    rw [hne]
    simp

/-- Score (p, j) is Σ e, (q p e · scale) · k j e. -/
def scores (x0 : Vec Ideal S1x512x32 .f32) (x1 : Vec Ideal S1x4096x32 .f32) : FVec Ideal S512x4096 .f32 :=
  matmul dot_S512x32_S32x4096_S512x4096_1_0_0_1_n_n none
    (truncf .bf16 (mulf (shapeCast S512x32 x0 shapeCasts_S1x512x32_S512x32) (broadcast S512x32 (Scalar.ofBits .f32 0x40900000#32))) bitsLt_bf16_f32)
    (transpose S32x4096 [1, 0] (truncf .bf16 (shapeCast S4096x32 x1 shapeCasts_S1x4096x32_S4096x32) bitsLt_bf16_f32) transposes_S4096x32_p1_0_S32x4096)
    (constant S512x4096 .f32 0x00000000#32)

theorem scores_apply (x0 : Vec Ideal S1x512x32 .f32) (x1 : Vec Ideal S1x4096x32 .f32) (p : Fin 512) (j : Fin 4096) :
    scores x0 x1 (ix2 p j) = ∑ e : Fin 32, (x0 (ix3 0 p e) * Cert.Attn.scale) * x1 (ix3 0 j e) := by
  unfold scores
  rw [dotS]
  refine (PlainDot.matmul_zero_plain_apply none _ _ (ix2 p j)).trans ?_
  refine Finset.sum_congr rfl fun e _ => ?_
  refine congrArg₂ _ ?_ ?_
  · show shapeCast S512x32 x0 shapeCasts_S1x512x32_S512x32 (ix2 p e) * Cert.Attn.scale = _
    rw [dropUnit_apply x0 _ p e]
  · refine (transpose_apply [1, 0] _ transposes_S4096x32_p1_0_S32x4096 (ix2 e j) (ix2 j e) fun b => ?_).trans ?_
    · match b with
      | ⟨0, _⟩ => rfl
      | ⟨1, _⟩ => rfl
    · exact dropUnit_apply x1 shapeCasts_S1x4096x32_S4096x32 j e

/-- The largest score of query row p. -/
def rowMax (x0 : Vec Ideal S1x512x32 .f32) (x1 : Vec Ideal S1x4096x32 .f32) (p : Fin 512) : EReal :=
  (Finset.univ : Finset (Fin 4096)).fold max Cert.Attn.negInf (fun j => scores x0 x1 (ix2 p j))

/-- The unnormalised weights of a query tile, as the body forms them. -/
def wts (x0 : Vec Ideal S1x512x32 .f32) (x1 : Vec Ideal S1x4096x32 .f32) : FVec Ideal S512x4096 .f32 :=
  exp (subf (scores x0 x1) (broadcastTo S512x4096 (shapeCast S512x1
    (multiReduction .maximumf [1] S512 (scores x0 x1) 0xFF800000#32 reduces_S512x4096_S512 (.inl rfl) rfl)
    shapeCasts_S512_S512x1) broadcasts_S512x1_S512x4096))

/-- A row's maximum over the keys, from −∞: the fold of max over the row. -/
theorem rowmax_apply (src : FVec Ideal S512x4096 .f32) (hφ : FKind.Formats .f32)
    (hacc : (0xFF800000#32 : BitVec 32) = 0xFF800000#32) (p : Fin 512) :
    multiReduction .maximumf [1] S512 src 0xFF800000#32 reduces_S512x4096_S512 hφ hacc (ix1 p)
      = (Finset.univ : Finset (Fin 4096)).fold max Cert.Attn.negInf (fun j => src (ix2 p j)) :=
  (Ideal.multiReduction_maximumf_single src 0xFF800000#32 reduces_S512x4096_S512 hφ hacc (ix1 p)).trans
    (congrArg (Finset.univ.fold max _) (funext fun k => congrArg src (lift_eq p k)))

/-- A row's sum over the keys. -/
theorem rowsum_apply (src : FVec Ideal S512x4096 .f32) (hφ : FKind.Formats .f32)
    (hacc : (0x00000000#32 : BitVec 32) = 0x00000000#32) (p : Fin 512) :
    multiReduction .add [1] S512 src 0x00000000#32 reduces_S512x4096_S512 hφ hacc (ix1 p) = ∑ j : Fin 4096, src (ix2 p j) :=
  (Ideal.multiReduction_add_single src 0x00000000#32 reduces_S512x4096_S512 hφ hacc (ix1 p)).trans
    (Finset.sum_congr rfl fun k _ => congrArg src (lift_eq p k))

/-- Weight (p, j) is exp (score − row maximum). -/
theorem wts_apply (x0 : Vec Ideal S1x512x32 .f32) (x1 : Vec Ideal S1x4096x32 .f32) (p : Fin 512) (j : Fin 4096) :
    wts x0 x1 (ix2 p j) = Ideal.exp (scores x0 x1 (ix2 p j) - rowMax x0 x1 p) := by
  unfold wts
  show Ideal.exp (scores x0 x1 (ix2 p j) - broadcastTo S512x4096 (shapeCast S512x1 _ shapeCasts_S512_S512x1) broadcasts_S512x1_S512x4096 (ix2 p j)) = _
  refine congrArg (fun z => Ideal.exp (scores x0 x1 (ix2 p j) - z)) ?_
  refine (spread_apply (by decide) _ shapeCasts_S512_S512x1 broadcasts_S512x1_S512x4096 p j).trans ?_
  exact rowmax_apply (scores x0 x1) _ _ p

/-- THE VALUE ROWS at an entry: the one-hot weights of code r times the table's column d. -/
theorem pay1_apply (x2 : Vec Ideal S1x4096x1 .i32) (x3 : Vec Ideal S10x32 .f32) (r : Fin 4096) (d : Fin 32) :
    k0_pay1 (F := Ideal) x2 x3 (ix2 r d) = ∑ i : Fin 10, Cert.Attn.onehot (x2 (ix3 0 r 0)) i * x3 (ix2 i d) := by
  unfold k0_pay1
  dsimp only
  rw [shapeCast_self]
  show matmul (F := Ideal) (φ₁ := .f32) (φ₂ := .f32) dot_S4096x10_S10x32_S4096x32_1_0_0_1_n_n none _ x3 (constant S4096x32 .f32 0x00000000#32) (ix2 r d) = _
  rw [dotE]
  refine (PlainDot.matmul_zero_plain_apply (φ₁ := .f32) (φ₂ := .f32) none _ x3 (ix2 r d)).trans ?_
  exact Finset.sum_congr rfl fun i _ => congrArg₂ _ (onehot_apply x2 r i) rfl

/-- THE ATTENTION BLOCK at an entry: the weighted sum of the rows the scratch holds, over the total weight. -/
theorem pay2_apply (x0 : Vec Ideal S1x512x32 .f32) (x1 : Vec Ideal S1x4096x32 .f32) (xs : Vec Ideal S4096x32 .bf16)
    (p : Fin 512) (d : Fin 32) :
    k0_pay2 (F := Ideal) x0 x1 xs (ix3 0 p d)
      = Ideal.div (∑ j : Fin 4096, wts x0 x1 (ix2 p j) * xs (ix2 j d)) (∑ j : Fin 4096, wts x0 x1 (ix2 p j)) := by
  have e : k0_pay2 (F := Ideal) x0 x1 xs = shapeCast S1x512x32 (divf
      (matmul dot_S512x4096_S4096x32_S512x32_1_0_0_1_n_n none (truncf .bf16 (wts x0 x1) bitsLt_bf16_f32) xs (constant S512x32 .f32 0x00000000#32))
      (broadcastTo S512x32 (shapeCast S512x1 (multiReduction .add [1] S512 (wts x0 x1) 0x00000000#32 reduces_S512x4096_S512 (.inl rfl) rfl)
        shapeCasts_S512_S512x1) broadcasts_S512x1_S512x32)) shapeCasts_S512x32_S1x512x32 := rfl
  rw [e, addUnit_apply _ shapeCasts_S512x32_S1x512x32 p d, divf_apply, dotO]
  refine congrArg₂ _ ((PlainDot.matmul_zero_plain_apply (φ₁ := .bf16) (φ₂ := .bf16) none (truncf .bf16 (wts x0 x1) bitsLt_bf16_f32) xs (ix2 p d)).trans ?_) ?_
  · rfl
  · refine (spread_apply (by decide) _ shapeCasts_S512_S512x1 broadcasts_S512x1_S512x32 p d).trans ?_
    exact rowsum_apply (wts x0 x1) _ _ p

end Cert.KernelIdeal.Pay

end
-- ==== Proof.KBlock.lean ====
/-
  One attention block against the whole-array function.

  If a query tile's entries are rows P of batch b of q, the key block's entries are batch b of k, and the rows the
  scratch holds are the value rows of batch b, then entry (p, d) of the block the body stores is entry (b, P, d)
  of the attention function of the whole arrays: score, row maximum, weight and the two sums agree term by term.
-/
import proofs.«426676_j39676907884462_2_alg».proof.Proof.KPay

open scoped BigOperators

noncomputable section

open Idealize.ShloMosaic Idealize.ShloMosaic.ValueIdx

namespace Cert.KernelIdeal.Pay

open Cert.KernelIdeal Cert.KernelIdeal.Gen

/-- The block's scores are the array's scores. -/
theorem scores_eq (x0 : Vec Ideal S1x512x32 .f32) (x1 : Vec Ideal S1x4096x32 .f32) (q k : Cert.Attn.Arr3)
    (b : Fin 8) (P : Fin 4096) (p : Fin 512)
    (h0 : ∀ e : Fin 32, x0 (ix3 0 p e) = q (ix3 b P e)) (h1 : ∀ (j : Fin 4096) (e : Fin 32), x1 (ix3 0 j e) = k (ix3 b j e))
    (j : Fin 4096) : scores x0 x1 (ix2 p j) = Cert.Attn.score q k b P j := by
  rw [scores_apply]
  unfold Cert.Attn.score
  exact Finset.sum_congr rfl fun e _ => by rw [h0 e, h1 j e]

/-- The block's weights are the array's weights. -/
theorem wts_eq (x0 : Vec Ideal S1x512x32 .f32) (x1 : Vec Ideal S1x4096x32 .f32) (q k : Cert.Attn.Arr3)
    (b : Fin 8) (P : Fin 4096) (p : Fin 512)
    (h0 : ∀ e : Fin 32, x0 (ix3 0 p e) = q (ix3 b P e)) (h1 : ∀ (j : Fin 4096) (e : Fin 32), x1 (ix3 0 j e) = k (ix3 b j e))
    (j : Fin 4096) : wts x0 x1 (ix2 p j) = Cert.Attn.weight q k b P j := by
  rw [wts_apply]
  unfold Cert.Attn.weight rowMax Cert.Attn.rowMax
  rw [scores_eq x0 x1 q k b P p h0 h1 j]
  exact congrArg (fun f => Ideal.exp (Cert.Attn.score q k b P j - (Finset.univ : Finset (Fin 4096)).fold max Cert.Attn.negInf f))
    (funext fun j' => scores_eq x0 x1 q k b P p h0 h1 j')

/-- ENTRY (p, d) OF THE STORED BLOCK is entry (b, P, d) of the attention function of the arrays. -/
theorem block_entry (x0 : Vec Ideal S1x512x32 .f32) (x1 : Vec Ideal S1x4096x32 .f32) (xs : Vec Ideal S4096x32 .bf16)
    (q k : Cert.Attn.Arr3) (v : Cert.Attn.Codes) (tab : Cert.Attn.Tab) (b : Fin 8) (P : Fin 4096) (p : Fin 512) (d : Fin 32)
    (h0 : ∀ e : Fin 32, x0 (ix3 0 p e) = q (ix3 b P e)) (h1 : ∀ (j : Fin 4096) (e : Fin 32), x1 (ix3 0 j e) = k (ix3 b j e))
    (hs : ∀ j : Fin 4096, xs (ix2 j d) = Cert.Attn.valueRow v tab b j d) :
    k0_pay2 (F := Ideal) x0 x1 xs (ix3 0 p d) = Cert.Attn.attn q k v tab (ix3 b P d) := by
  rw [pay2_apply]
  show _ = Ideal.div (∑ j : Fin 4096, Cert.Attn.weight q k b P j * Cert.Attn.valueRow v tab b j d)
    (∑ j : Fin 4096, Cert.Attn.weight q k b P j)
  refine congrArg₂ _ (Finset.sum_congr rfl fun j _ => ?_) (Finset.sum_congr rfl fun j _ => wts_eq x0 x1 q k b P p h0 h1 j)
  rw [wts_eq x0 x1 q k b P p h0 h1 j, hs j]

/-- The rows the body stores at a batch's first tile are the batch's value rows. -/
theorem rows_entry (x2 : Vec Ideal S1x4096x1 .i32) (x3 : Vec Ideal S10x32 .f32) (v : Cert.Attn.Codes) (tab : Cert.Attn.Tab)
    (b : Fin 8) (h2 : ∀ r : Fin 4096, x2 (ix3 0 r 0) = v (ix2 b r)) (h3 : ∀ (i : Fin 10) (d : Fin 32), x3 (ix2 i d) = tab (ix2 i d))
    (r : Fin 4096) (d : Fin 32) : k0_pay1 (F := Ideal) x2 x3 (ix2 r d) = Cert.Attn.valueRow v tab b r d := by
  rw [pay1_apply]
  unfold Cert.Attn.valueRow
  exact Finset.sum_congr rfl fun i _ => by rw [h2 r, h3 i d]

end Cert.KernelIdeal.Pay

end
-- ==== Proof.KValue.lean ====
/-
  The kernel's result array, as one function of the argument arrays.

  The grid has 64 points: point t works on batch t / 8 and query tile t % 8 (512 query rows). Its query block is rows
  512·(t % 8) … of batch t / 8 of q; its key block and its code block are the whole batch t / 8 of k and of the codes;
  the table block is the whole table. The scratch is filled at a batch's first tile (t % 8 = 0) with the batch's
  value rows and kept until the batch's last tile, so after every point it holds the value rows of batch t / 8
  (induction on the point). Hence every point writes back the block of the attention function at its place, the
  64 blocks tile the result array, and the array ends holding the attention function of the arguments.
-/
import proofs.«426676_j39676907884462_2_alg».proof.Proof.Gen.KernelIdeal.Value
import proofs.«426676_j39676907884462_2_alg».proof.Proof.KPieces
import proofs.«426676_j39676907884462_2_alg».proof.Proof.KBlock
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen

variable (m : (ℓ : Loc nD τ sig) → Buf (Elt Ideal) ℓ) (ρ : Dev nD → PrngReg)

/-- The four argument arrays as launched. -/
abbrev qArr (c : Dev nD) : Cert.Attn.Arr3 := m ((c : Thread nD τ).loc main_arg0)
abbrev kArr (c : Dev nD) : Cert.Attn.Arr3 := m ((c : Thread nD τ).loc main_arg1)
abbrev codes (c : Dev nD) : Cert.Attn.Codes := m ((c : Thread nD τ).loc main_arg2)
abbrev table (c : Dev nD) : Cert.Attn.Tab := m ((c : Thread nD τ).loc main_arg3)

/-- The attention function of the arguments: what the result array ends holding. -/
abbrev result (c : Dev nD) : Buf (Elt Ideal) ((c : Thread nD τ).loc main_v1) :=
  Cert.Attn.attn (qArr m c) (kArr m c) (codes m c) (table m c)

/-- The blocks a point is handed, at their literal shapes. -/
abbrev qblk (c : Dev nD) (t : Fin cfg0.N) : Vec Ideal S1x512x32 .f32 := iblk m c 0 t
abbrev kblk (c : Dev nD) (t : Fin cfg0.N) : Vec Ideal S1x4096x32 .f32 := iblk m c 1 t
abbrev vblk (c : Dev nD) (t : Fin cfg0.N) : Vec Ideal S1x4096x1 .i32 := iblk m c 2 t
abbrev eblk (c : Dev nD) (t : Fin cfg0.N) : Vec Ideal S10x32 .f32 := iblk m c 3 t

/-- Where each window's block sits at point t: batch t / 8, query tile t % 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0 :=
  (by decide +kernel : ∀ t : Fin grid0.N, _)

/-! ## The blocks, entry by entry -/

/-- The query block's row p is row 512·(t % 8) + p of batch t / 8. -/
theorem qblk_apply (c : Dev nD) (t : Fin cfg0.N) (b : Fin 8) (P : Fin 4096) (p : Fin 512)
    (hb : b.val = t.val / 8) (hP : P.val = t.val % 8 * 512 + p.val) (e : Fin 32) :
    qblk m c t (ix3 0 p e) = qArr m c (ix3 b P e) := by
  obtain ⟨f0, f1, f2, -⟩ := idx_facts t
  show iblk m c 0 t (ix3 0 p e) = _
  unfold iblk
  rw [View.read_apply]
  show V m c main_arg0 _ = _
  rw [V_main_arg0]
  refine congrArg (qArr m c) (funext fun a => Fin.ext ?_)
  match a with
  | ⟨0, _⟩ => show win0_0.index t (0 : Fin 3) * 1 + 1 * 0 = b.val; omega
  | ⟨1, _⟩ => show win0_0.index t (1 : Fin 3) * 512 + 1 * p.val = P.val; omega
  | ⟨2, _⟩ => show win0_0.index t (2 : Fin 3) * 32 + 1 * e.val = e.val; omega

/-- The key block is batch t / 8 of k. -/
theorem kblk_apply (c : Dev nD) (t : Fin cfg0.N) (b : Fin 8) (hb : b.val = t.val / 8) (j : Fin 4096) (e : Fin 32) :
    kblk m c t (ix3 0 j e) = kArr m c (ix3 b j e) := by
  obtain ⟨-, -, -, f0, f1, f2, -⟩ := idx_facts t
  show iblk m c 1 t (ix3 0 j e) = _
  unfold iblk
  rw [View.read_apply]
  show V m c main_arg1 _ = _
  rw [V_main_arg1]
  refine congrArg (kArr m c) (funext fun a => Fin.ext ?_)
  match a with
  | ⟨0, _⟩ => show win0_1.index t (0 : Fin 3) * 1 + 1 * 0 = b.val; omega
  | ⟨1, _⟩ => show win0_1.index t (1 : Fin 3) * 4096 + 1 * j.val = j.val; omega
  | ⟨2, _⟩ => show win0_1.index t (2 : Fin 3) * 32 + 1 * e.val = e.val; omega

/-- The table block is the table. -/
theorem eblk_apply (c : Dev nD) (t : Fin cfg0.N) (i : Fin 10) (d : Fin 32) :
    eblk m c t (ix2 i d) = table m c (ix2 i d) := by
  obtain ⟨-, -, -, -, -, -, -, -, -, f0, f1, -⟩ := idx_facts t
  show iblk m c 3 t (ix2 i d) = _
  unfold iblk
  rw [View.read_apply]
  show V m c main_arg3 _ = _
  rw [V_main_arg3]
  refine congrArg (table m c) (funext fun a => Fin.ext ?_)
  match a with
  | ⟨0, _⟩ => show win0_3.index t (0 : Fin 2) * 10 + 1 * i.val = i.val; omega
  | ⟨1, _⟩ => show win0_3.index t (1 : Fin 2) * 32 + 1 * d.val = d.val; omega

/-- The codes as the region finds them: the [8, 4096] argument viewed as [8, 4096, 1]. -/
theorem codes_view (c : Dev nD) :
    (V m c main_v0 : S8x4096x1.Idx → Elt Ideal .i32) = shapeCast S8x4096x1 (m ((c : Thread nD τ).loc main_arg2)) shapeCasts_S8x4096_S8x4096x1 := by
  dsimp only [V, hostOps0]
  after_results
  rfl

/-- The code block is batch t / 8 of the codes. -/
theorem vblk_apply (c : Dev nD) (t : Fin cfg0.N) (b : Fin 8) (hb : b.val = t.val / 8) (r : Fin 4096) :
    vblk m c t (ix3 0 r 0) = codes m c (ix2 b r) := by
  obtain ⟨-, -, -, -, -, -, f0, f1, f2, -⟩ := idx_facts t
  show iblk m c 2 t (ix3 0 r 0) = _
  unfold iblk
  rw [View.read_apply]
  show V m c main_v0 _ = _
  rw [codes_view]
  refine shapeCast_apply _ shapeCasts_S8x4096_S8x4096x1 _ (ix2 b r) ?_
  rw [Shape.rowMajor_val_two, Shape.rowMajor_val_three]
  show b.val * 4096 + r.val = ((win0_2.index t (0 : Fin 3) * 1 + 1 * 0) * 4096 + (win0_2.index t (1 : Fin 3) * 4096 + 1 * r.val)) * 1 + (win0_2.index t (2 : Fin 3) * 1 + 1 * 0)
  omega

/-! ## The scratch after every point -/

/-- The rows stored at a batch's first tile are the batch's value rows. -/
theorem rows_at (c : Dev nD) (t : Fin cfg0.N) (b : Fin 8) (hb : b.val = t.val / 8) (r : Fin 4096) (d : Fin 32) :
    k0_pay1 (F := Ideal) (vblk m c t) (eblk m c t) (ix2 r d) = Cert.Attn.valueRow (codes m c) (table m c) b r d :=
  Pay.rows_entry (vblk m c t) (eblk m c t) (codes m c) (table m c) b (fun r => vblk_apply m c t b hb r)
    (fun i d => eblk_apply m c t i d) r d

/-- AFTER POINT n THE SCRATCH HOLDS THE VALUE ROWS OF BATCH n / 8: filled at the batch's first tile, kept by the others. -/
theorem scratch_eq (c : Dev nD) : ∀ (n : ℕ) (hn : n < cfg0.N) (b : Fin 8), b.val = n / 8 → ∀ (r : Fin 4096) (d : Fin 32),
    (outsAt0 m c n hn).2 (ix2 r d) = Cert.Attn.valueRow (codes m c) (table m c) b r d := by
  intro n
  induction n with
  | zero =>
    intro hn b hb r d
    rw [outsAt0_A m c ⟨0, hn⟩ rfl]
    dsimp only
    refine (congrFun (Pieces.sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (qblk m c ⟨0, hn⟩) (kblk m c ⟨0, hn⟩) (vblk m c ⟨0, hn⟩) (eblk m c ⟨0, hn⟩)) (ix2 r d)).trans ?_
    exact rows_at m c ⟨0, hn⟩ b hb r d
  | succ n ih =>
    intro hn b hb r d
    by_cases h0 : (n + 1) % 8 = 0
    · rw [outsAt0_A m c ⟨n + 1, hn⟩ h0]
      dsimp only
      refine (congrFun (Pieces.sout_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (qblk m c ⟨n + 1, hn⟩) (kblk m c ⟨n + 1, hn⟩) (vblk m c ⟨n + 1, hn⟩) (eblk m c ⟨n + 1, hn⟩)) (ix2 r d)).trans ?_
      exact rows_at m c ⟨n + 1, hn⟩ b hb r d
    · rw [outsAt0_B m c ⟨n + 1, hn⟩ h0]
      dsimp only
      unfold sout0_B_0
      exact ih (Nat.lt_of_succ_lt hn) b (by omega) r d

/-! ## What each point writes back, and the whole array -/

/-- A block computed over rows that are the batch's value rows is the attention function's block at the point. -/
theorem block_eq (c : Dev nD) (t : Fin cfg0.N) (xs : Vec Ideal S4096x32 .bf16)
    (hxs : ∀ b : Fin 8, b.val = t.val / 8 → ∀ (r : Fin 4096) (d : Fin 32), xs (ix2 r d) = Cert.Attn.valueRow (codes m c) (table m c) b r d) :
    (cfg0.win 4).cut (grid0.coords t) (k0_pay2 (F := Ideal) (qblk m c t) (kblk m c t) xs)
      = ((cfg0.win 4).blk t).view.read (Elt Ideal) (result m c) := by
  have hN : t.val < 64 := lt_of_lt_of_eq t.isLt (show cfg0.N = 64 from N_0)
  obtain ⟨-, -, -, -, -, -, -, -, -, -, -, f0, f1, f2⟩ := idx_facts t
  funext y
  have y0 : (y 0).val < 1 := (y 0).isLt
  have y1 : (y 1).val < 512 := (y 1).isLt
  have y2 : (y 2).val < 32 := (y 2).isLt
  have hy : y = ix3 (0 : Fin 1) (⟨(y 1).val, y1⟩ : Fin 512) (⟨(y 2).val, y2⟩ : Fin 32) := by
    funext a
    apply Fin.ext
    match a with
    | ⟨0, _⟩ => show (y 0).val = 0; omega
    | ⟨1, _⟩ => rfl
    | ⟨2, _⟩ => rfl
  have hb : t.val / 8 < 8 := by omega
  have hP : t.val % 8 * 512 + (y 1).val < 4096 := by omega
  rw [View.read_apply]
  have he : ((cfg0.win 4).blk t).view.emb y = ix3 (⟨t.val / 8, hb⟩ : Fin 8) (⟨t.val % 8 * 512 + (y 1).val, hP⟩ : Fin 4096) (⟨(y 2).val, y2⟩ : Fin 32) := by
    funext a
    apply Fin.ext
    match a with
    | ⟨0, _⟩ => show win0_4.index t (0 : Fin 3) * 1 + 1 * (y 0).val = t.val / 8; omega
    | ⟨1, _⟩ => show win0_4.index t (1 : Fin 3) * 512 + 1 * (y 1).val = t.val % 8 * 512 + (y 1).val; omega
    | ⟨2, _⟩ => show win0_4.index t (2 : Fin 3) * 32 + 1 * (y 2).val = (y 2).val; omega
  rw [he]
  show k0_pay2 (F := Ideal) (qblk m c t) (kblk m c t) xs y
    = result m c (ix3 (⟨t.val / 8, hb⟩ : Fin 8) (⟨t.val % 8 * 512 + (y 1).val, hP⟩ : Fin 4096) (⟨(y 2).val, y2⟩ : Fin 32))
  refine (congrArg (k0_pay2 (F := Ideal) (qblk m c t) (kblk m c t) xs) hy).trans ?_
  exact Pay.block_entry (qblk m c t) (kblk m c t) xs (qArr m c) (kArr m c) (codes m c) (table m c)
    ⟨t.val / 8, hb⟩ ⟨t.val % 8 * 512 + (y 1).val, hP⟩ ⟨(y 1).val, y1⟩ ⟨(y 2).val, y2⟩
    (fun e => qblk_apply m c t _ _ _ rfl rfl e) (fun j e => kblk_apply m c t _ rfl j e) (fun j => hxs _ rfl j _)

/-- WHAT POINT t WRITES BACK is block t of the attention function of the arguments. -/
theorem flushed_eq (c : Dev nD) (t : Fin cfg0.N) :
    (dats m 0 c).flushed 4 t = ((cfg0.win 4).blk t).view.read (Elt Ideal) (result m c) := by
  have hN : t.val < 64 := lt_of_lt_of_eq t.isLt (show cfg0.N = 64 from N_0)
  by_cases h0 : t.val % 8 = 0
  · rw [Value.flushed4_A m c t h0]
    refine (congrArg ((cfg0.win 4).cut (grid0.coords t)) (Pieces.out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (qblk m c t) (kblk m c t) (vblk m c t) (eblk m c t))).trans ?_
    exact block_eq m c t _ (fun b hb r d => rows_at m c t b hb r d)
  · rw [Value.flushed4_B m c t h0]
    refine (congrArg ((cfg0.win 4).cut (grid0.coords t)) (Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (qblk m c t) (kblk m c t) (vblk m c t) (eblk m c t) (outsAt0 m c (t.val - 1) (Nat.lt_of_le_of_lt (Nat.sub_le _ _) t.isLt)).2)).trans ?_
    exact block_eq m c t _ (fun b hb r d => scratch_eq m c (t.val - 1) _ b (by omega) r d)

/-- THE RESULT ARRAY after the run: the 64 blocks tile it, so it is the attention function of the arguments. -/
theorem final (c : Dev nD) : (dats m 0 c).arrAt 4 cfg0.N = result m c :=
  (dats m 0 c).arrAt_eq_of_cover 4 (result m c) (fun t _ => flushed_eq m c t) fun i => by
    have h0 : (i 0).val < 8 := (i 0).isLt
    have h1 : (i 1).val < 4096 := (i 1).isLt
    have h2 : (i 2).val < 32 := (i 2).isLt
    have ht : (i 0).val * 8 + (i 1).val / 512 < cfg0.N := by rw [show cfg0.N = 64 from N_0]; omega
    refine ⟨⟨(i 0).val * 8 + (i 1).val / 512, ht⟩, flush0_4 _, ?_⟩
    have hf := idx_facts ⟨(i 0).val * 8 + (i 1).val / 512, ht⟩
    dsimp only at hf
    obtain ⟨-, -, -, -, -, -, -, -, -, -, -, f0, f1, f2⟩ := hf
    show i ∈ ((View.whole main_v1).slice (win0_4.rect ⟨(i 0).val * 8 + (i 1).val / 512, ht⟩)).set
    rw [View.set_slice_whole, Rect.mem_set_unit]
    intro a
    match a with
    | ⟨0, _⟩ => show win0_4.index ⟨(i 0).val * 8 + (i 1).val / 512, ht⟩ (0 : Fin 3) * 1 ≤ (i 0).val ∧ (i 0).val < win0_4.index ⟨(i 0).val * 8 + (i 1).val / 512, ht⟩ (0 : Fin 3) * 1 + 1; omega
    | ⟨1, _⟩ => show win0_4.index ⟨(i 0).val * 8 + (i 1).val / 512, ht⟩ (1 : Fin 3) * 512 ≤ (i 1).val ∧ (i 1).val < win0_4.index ⟨(i 0).val * 8 + (i 1).val / 512, ht⟩ (1 : Fin 3) * 512 + 512; omega
    | ⟨2, _⟩ => show win0_4.index ⟨(i 0).val * 8 + (i 1).val / 512, ht⟩ (2 : Fin 3) * 32 ≤ (i 2).val ∧ (i 2).val < win0_4.index ⟨(i 0).val * 8 + (i 1).val / 512, ht⟩ (2 : Fin 3) * 32 + 32; omega

/-- The run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnValue

end
-- ==== Proof.RefRead.lean ====
/-
  The reference program's result, read index by index, is the specification's reference arrangement.

  For batch b, query row p, key row j and feature d the reference computes, stage by stage:
    the gathered value row   table (row (v b j)) d, the code read signed, a negative one moved up by 10, clamped into 0..9;
    the score                (Σ e, q b p e · k b j e) · 4.5;
    the row maximum          max of −∞ and the maximum over j of the score, the maximum itself started from −∞;
    the weight               exp (score − row maximum);
    the total                0 + Σ j', weight j';
    the result               Σ j, (weight j / total) · value row j d.
  Each stage below is read at its coordinates and identified with the specification's function of the same name;
  nothing is used beyond the shapes of the indices and 0 + x = x.
-/
import proofs.«426676_j39676907884462_2_alg».proof.Proof.Gen.ReferenceIdeal.Read
import proofs.«426676_j39676907884462_2_alg».proof.Proof.Spec
import Idealize.ShloMosaic.PureOps.Reduce
import Idealize.ShloMosaic.PureOps.ShapeOps
import Idealize.ShloMosaic.PureOps.Ideal.Laws
import Idealize.ShloMosaic.Lib.ValueIdx

open scoped BigOperators

noncomputable section

namespace Cert.ReferenceIdeal.AttnRef

open Cert.ReferenceIdeal Cert.ReferenceIdeal.Gen Cert.ReferenceIdeal.Read Idealize.ShloMosaic Idealize.ShloMosaic.ValueIdx

/-! ## The gather of table rows -/

/-- The gather's dimension numbers: operand [10, 32], start indices [8, 4096, 1], result [8, 4096, 32]; operand axis 0 is
    collapsed and addressed by the start index, operand axis 1 is the result's offset axis 2. -/
abbrev tableGather := gather_S10x32_S8x4096x1_S8x4096x32_2_0_n_n_0_2_132

/-- The gather at (b, j, d): the table at (row, d), where row is the start index at (b, j, 0) read as a signed integer,
    a negative one becoming 0, and capped at 9. On operand axis 0 the slice start is that clamped index and the offset
    is 0 (the axis is collapsed); on operand axis 1 the slice start is 0 and the offset is the result's coordinate d. -/
theorem gather_at {α : Type} (x3 : S10x32.Idx → α) (idx : IVec S8x4096x1 32) (b : Fin 8) (j : Fin 4096) (d : Fin 32) :
    Host.gather tableGather x3 idx (ix3 b j d)
      = x3 (ix2 (⟨min (idx (ix3 b j (0 : Fin 1))).toInt.toNat 9, by omega⟩ : Fin 10) d) := by
  unfold Host.gather
  congr 1
  funext a
  refine Fin.ext ?_
  match a with
  | ⟨0, _⟩ =>
    show tableGather.start (ix3 b j d) idx 0 + tableGather.batchCoord (ix3 b j d) 0 + tableGather.offCoord (ix3 b j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ tableGather.startIndexMap from List.mem_singleton.mpr rfl)]
    have hsi : tableGather.siIdx (ix3 b j d) ⟨List.idxOf (0 : Fin 2) tableGather.startIndexMap,
        List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    rw [hsi]
    rfl
  | ⟨1, _⟩ =>
    show tableGather.start (ix3 b j d) idx 1 + tableGather.batchCoord (ix3 b j d) 1 + tableGather.offCoord (ix3 b j d) 1 = _
    rw [GatherDims.batchCoord_eq_zero _ _ _ List.not_mem_nil]
    unfold GatherDims.start
    rw [dif_neg (show ¬ (1 : Fin 2) ∈ tableGather.startIndexMap by decide)]
    unfold GatherDims.offCoord
    rw [dif_pos (show (1 : Fin 2) ∈ tableGather.sKept by decide)]
    have h2 : (tableGather.offsetDims[List.idxOf (1 : Fin 2) tableGather.sKept]'(by decide)) = (2 : Fin 3) := by decide
    rw [h2]
    show 0 + 0 + d.val = d.val
    omega

/-- The start index at (b, j, 0) is the code at (b, j), a negative one moved up by 10. -/
theorem code_at (x2 : (⟨S8x4096, .i32⟩ : BufTy).Contents (Elt Ideal)) (b : Fin 8) (j : Fin 4096) :
    val_main_v5 (F := Ideal) x2 (ix3 b j (0 : Fin 1)) = Cert.Attn.wrapCode (x2 (ix2 b j)) := by
  rw [val_main_v5_apply, val_main_v4_apply, val_main_v1_apply, val_main_v3_apply, val_main_v0_apply,
    val_main_v2_apply, val_main_c_apply, val_main_c_0_apply]
  have e : idx_main_v5 (ix3 b j (0 : Fin 1)) = ix2 b j :=
    funext fun a => Fin.ext (by match a with | ⟨0, _⟩ => rfl | ⟨1, _⟩ => rfl)
  rw [e]
  rfl

/-- The gathered value row at (b, j, d) is the table's row for the code at (b, j), at feature d. -/
theorem value_at (x2 : (⟨S8x4096, .i32⟩ : BufTy).Contents (Elt Ideal)) (x3 : (⟨S10x32, .f32⟩ : BufTy).Contents (Elt Ideal))
    (b : Fin 8) (j : Fin 4096) (d : Fin 32) :
    val_main_v6 (F := Ideal) x2 x3 (ix3 b j d) = x3 (ix2 (Cert.Attn.rowOf (x2 (ix2 b j))) d) := by
  unfold val_main_v6
  rw [gather_at]
  refine congrArg x3 (congrArg (fun r : Fin 10 => ix2 r d) (Fin.ext ?_))
  show min (val_main_v5 (F := Ideal) x2 (ix3 b j (0 : Fin 1))).toInt.toNat 9
    = min (Cert.Attn.wrapCode (x2 (ix2 b j))).toInt.toNat 9
  rw [code_at]

/-! ## Scores, row maxima, weights and totals -/

/-- The scaled product at (b, p, j): the sum over the features of query times key, times 4.5. -/
theorem score_at (x0 x1 : (⟨S8x4096x32, .f32⟩ : BufTy).Contents (Elt Ideal)) (b : Fin 8) (p j : Fin 4096) :
    val_main_v9 (F := Ideal) x0 x1 (ix3 b p j) = Cert.Attn.refScore x0 x1 b p j := by
  rw [val_main_v9_apply, val_main_v7_apply, val_main_v8_apply, val_main_cst_apply, Ideal.mulf_def, Ideal.ofBits_def]
  have el : ∀ k : Fin 32, lidx_main_v7 (ix3 b p j) k = ix3 b p k := fun k =>
    funext fun a => Fin.ext (by match a with | ⟨0, _⟩ => rfl | ⟨1, _⟩ => rfl | ⟨2, _⟩ => rfl)
  have er : ∀ k : Fin 32, ridx_main_v7 (ix3 b p j) k = ix3 b j k := fun k =>
    funext fun a => Fin.ext (by match a with | ⟨0, _⟩ => rfl | ⟨1, _⟩ => rfl | ⟨2, _⟩ => rfl)
  simp only [el, er]
  rfl

/-- The maximum-reduction over the key axis at (b, p): maximum is commutative and associative on the extended reals, so
    the reduction is the fold of max from −∞ over the 4096 key rows j of the operand at (b, p, j). -/
theorem reduceMax_at (x0 x1 : (⟨S8x4096x32, .f32⟩ : BufTy).Contents (Elt Ideal)) (b : Fin 8) (p : Fin 4096) :
    val_main_v10 (F := Ideal) x0 x1 (ix2 b p)
      = (Finset.univ : Finset (Fin 4096)).fold max Cert.Attn.negInf (fun j => val_main_v9 (F := Ideal) x0 x1 (ix3 b p j)) := by
  unfold val_main_v10
  generalize val_main_v9 (F := Ideal) x0 x1 = y
  have hR : S8x4096x4096.Reduces [2] S8x4096 := by decide
  rw [Host.reduce_eq_fold_single _ y _ reducesTo_S8x4096x4096_S8x4096_d2 hR h_S_ (ix2 b p)]
  rw [val_main_cst_1_apply, Ideal.ofBits_def]
  have hy : (y ∘ hR.lift (ix2 b p)) = fun j : Fin 4096 => y (ix3 b p j) := by
    funext k
    exact congrArg y (funext fun a => Fin.ext (by match a with | ⟨0, _⟩ => rfl | ⟨1, _⟩ => rfl | ⟨2, _⟩ => rfl))
  rw [hy]
  rfl

/-- The row maximum at (b, p): −∞ against the maximum over the keys of the score. -/
theorem rowMax_at (x0 x1 : (⟨S8x4096x32, .f32⟩ : BufTy).Contents (Elt Ideal)) (b : Fin 8) (p : Fin 4096) :
    val_main_v12 (F := Ideal) x0 x1 (ix2 b p) = Cert.Attn.refRowMax x0 x1 b p := by
  rw [val_main_v12_apply, val_main_v11_apply, val_main_cst_2_apply, reduceMax_at, Ideal.maximumf_def, Ideal.ofBits_def]
  simp only [score_at]
  rfl

/-- The weight at (b, p, j): the exponential of the score less the row maximum, the maximum broadcast back along j. -/
theorem weight_at (x0 x1 : (⟨S8x4096x32, .f32⟩ : BufTy).Contents (Elt Ideal)) (b : Fin 8) (p j : Fin 4096) :
    val_main_v16 (F := Ideal) x0 x1 (ix3 b p j) = Cert.Attn.refWeight x0 x1 b p j := by
  rw [val_main_v16_apply, val_main_v15_apply, val_main_v14_apply, val_main_v13_apply, Ideal.hostUnary_exp_def,
    Ideal.subf_def, score_at]
  have e : idx_main_v13 (idx_main_v14 (ix3 b p j)) = ix2 b p :=
    funext fun a => Fin.ext (by match a with | ⟨0, _⟩ => rfl | ⟨1, _⟩ => rfl)
  rw [e, rowMax_at]
  rfl

/-- The total weight of row (b, p), broadcast back along j: 0 plus the sum of the weights, which is the sum. -/
theorem total_at (x0 x1 : (⟨S8x4096x32, .f32⟩ : BufTy).Contents (Elt Ideal)) (b : Fin 8) (p j : Fin 4096) :
    val_main_v19 (F := Ideal) x0 x1 (ix3 b p j) = ∑ j' : Fin 4096, Cert.Attn.refWeight x0 x1 b p j' := by
  rw [val_main_v19_apply, val_main_v18_apply, val_main_v17_apply, val_main_cst_3_apply, Ideal.ofBits_def,
    Ideal.ofBits_zero_f32, zero_add]
  refine Finset.sum_congr rfl fun k _ => ?_
  have e : idx_main_v17 (idx_main_v18 (idx_main_v19 (ix3 b p j))) k = ix3 b p k :=
    funext fun a => Fin.ext (by match a with | ⟨0, _⟩ => rfl | ⟨1, _⟩ => rfl | ⟨2, _⟩ => rfl)
  rw [e, weight_at]

/-! ## The result -/

/-- The reference's result is the specification's reference arrangement: at (b, p, d) the sum over the keys j of the
    normalised weight at (b, p, j) times the gathered value row at (b, j, d). -/
theorem ref_eq (x0 x1 : (⟨S8x4096x32, .f32⟩ : BufTy).Contents (Elt Ideal)) (x2 : (⟨S8x4096, .i32⟩ : BufTy).Contents (Elt Ideal))
    (x3 : (⟨S10x32, .f32⟩ : BufTy).Contents (Elt Ideal)) :
    Cert.ReferenceIdeal.Read.val_main_v21 (F := Ideal) x0 x1 x2 x3 = Cert.Attn.refAttn x0 x1 x2 x3 := by
  funext i
  obtain ⟨b, p, d, rfl⟩ : ∃ b p d, i = ix3 b p d := ⟨i 0, i 1, i 2, eq_ix3 i⟩
  rw [val_main_v21_apply]
  show _ = ∑ j : Fin 4096, Ideal.div (Cert.Attn.refWeight x0 x1 b p j) (∑ j' : Fin 4096, Cert.Attn.refWeight x0 x1 b p j')
    * x3 (ix2 (Cert.Attn.rowOf (x2 (ix2 b j))) d)
  refine Finset.sum_congr rfl fun k _ => ?_
  have el : lidx_main_v21 (ix3 b p d) k = ix3 b p k :=
    funext fun a => Fin.ext (by match a with | ⟨0, _⟩ => rfl | ⟨1, _⟩ => rfl | ⟨2, _⟩ => rfl)
  have er : ridx_main_v21 (ix3 b p d) k = ix3 b k d :=
    funext fun a => Fin.ext (by match a with | ⟨0, _⟩ => rfl | ⟨1, _⟩ => rfl | ⟨2, _⟩ => rfl)
  rw [el, er, val_main_v20_apply, Ideal.hostDivf_def, weight_at, total_at, value_at]

end Cert.ReferenceIdeal.AttnRef

end
-- ==== Proof.PreFacts.lean ====
/-
  The printed precondition, decoded: when the predicate's single bit is 1, every entry of the three real arrays
  is a finite real number, and every integer code lies in 0..9.

  The predicate is an "and" of four all-quantified tests. Each float test asks |x| < +∞ at every entry, which on the
  extended reals rules out both infinities; the integer test asks 0 ≤ code and code < 10, both read signed.
-/
import proofs.«426676_j39676907884462_2_alg».proof.Pre_finite_inputs
import proofs.«426676_j39676907884462_2_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Cert.Pre_finite_inputs

/-- The rank-0 shape has exactly one index. -/
instance : Subsingleton S_.Idx := ⟨fun a b => funext fun d => d.elim0⟩

/-- The word 0x7F800000 denotes +∞. -/
theorem posInf_eq : Ideal.ofBits .f32 0x7F800000#32 = (⊤ : EReal) := by
  simp [Ideal.ofBits, Ideal.ieee]

/-- An extended real whose absolute value tests strictly below +∞ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One float conjunct: if the all-reduce by "and" of the tests |x i| < +∞ is 1, every entry is real. -/
theorem finite_of_all {s : Shape} {axes : List (Fin s.rank)} (x : FVec Ideal s .f32)
    (hb : S_.BroadcastsInDim s (![] : Fin 0 → Fin s.rank)) (hr : s.ReducesTo axes S_) (h0 : 0 < S_.numel) (j : S_.Idx)
    (h : Host.reduce IntOp.andi
        (cmpf .olt (Host.absf x) (broadcastInDim s ![] hb (constant (F := Ideal) S_ .f32 0x7F800000#32)))
        (constantI S_ 1 1#1) hr h0 j = 1#1) :
    ∀ i, ∃ r : ℝ, x i = (r : EReal) := by
  intro i
  have hi := Host.reduce_andi_all _ _ hr h0 j h i
  have hi' : Ideal.cmp .olt (max (x i) (-(x i))) (Ideal.ofBits .f32 0x7F800000#32) = 1#1 := hi
  rw [posInf_eq] at hi'
  exact real_of_abs_lt_top (x i) hi'

/-- The integer conjunct: if the all-reduce by "and" of the tests 0 ≤ w ∧ w < 10 is 1, every code is in range. -/
theorem range_of_all {s : Shape} {axes : List (Fin s.rank)} (x : IVec s 32)
    (hb : S_.BroadcastsInDim s (![] : Fin 0 → Fin s.rank)) (hr : s.ReducesTo axes S_) (h0 : 0 < S_.numel) (j : S_.Idx)
    (h : Host.reduce IntOp.andi
        (andi (cmpi .sge x (broadcastInDim s ![] hb (constantI S_ 32 0#32)))
          (cmpi .slt x (broadcastInDim s ![] hb (constantI S_ 32 10#32))))
        (constantI S_ 1 1#1) hr h0 j = 1#1) :
    ∀ i, 0 ≤ (x i).toInt ∧ (x i).toInt < 10 := by
  intro i
  have hi := Host.reduce_andi_all _ _ hr h0 j h i
  have hi' : IntOp.andi (IntOp.cmpi .sge (x i) 0#32) (IntOp.cmpi .slt (x i) 10#32) = 1#1 := hi
  obtain ⟨h1, h2⟩ := IntOp.andi_eq_one.1 hi'
  have h1' := IntOp.cmpi_sge.1 h1
  have h2' := IntOp.cmpi_slt.1 h2
  rw [show (0#32 : BitVec 32).toInt = 0 from by decide] at h1'
  rw [show (10#32 : BitVec 32).toInt = 10 from by decide] at h2'
  exact ⟨h1', h2'⟩

theorem of_pre [Cert.Pre_finite_inputs.Facts] (x0 x1 : FVec Ideal S8x4096x32 .f32) (x2 : IVec S8x4096 32) (x3 : FVec Ideal S10x32 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, 0 ≤ (x2 i).toInt ∧ (x2 i).toInt < 10) ∧ (∀ i, ∃ r : ℝ, x3 i = (r : EReal)) := by
  have h0 := congrFun h ValueIdx.ix0
  dsimp only [fn, fn_part1] at h0
  obtain ⟨h013, h2⟩ := IntOp.andi_eq_one.1 h0
  obtain ⟨h01, h3⟩ := IntOp.andi_eq_one.1 h013
  obtain ⟨hx0, hx1⟩ := IntOp.andi_eq_one.1 h01
  exact ⟨finite_of_all x0 _ _ _ _ hx0, finite_of_all x1 _ _ _ _ hx1, range_of_all x2 _ _ _ _ h2, finite_of_all x3 _ _ _ _ h3⟩

end Cert.PreFacts

end
-- ==== Proof.AttnAlgebra.lean ====
/-
  The two arrangements of single-pass softmax attention over an embedded value table give the same extended reals
  whenever every query, key and table entry is a real number and every code is one of 0..9.

  The steps.  The scale is the real 9/2 and the starting value of the maxima is the bottom element.  A score is a finite
  sum of products of reals, so it is a real, and over the reals the scale may be applied to the finished product or to
  the query first.  The maximum of a nonempty family of reals, folded from the bottom element, is a real, and the maximum
  of the bottom element and that real is the same real.  The exponential of a real is a positive real, so the total
  weight is a positive real and dividing by it is real division.  A code in 0..9 is its own table row, and its one-hot
  weights pick exactly that row out of the table.  What is left is the real identity
      Σ j, (w j / L) · e j = (Σ j, w j · e j) / L.
-/
import proofs.«426676_j39676907884462_2_alg».proof.Proof.Spec
import Mathlib.Algebra.BigOperators.Field
import Mathlib.Algebra.Order.BigOperators.Group.Finset
import Mathlib.Tactic.Ring
import Mathlib.Tactic.NormNum

open scoped BigOperators

noncomputable section

namespace Cert.Attn

open Idealize.ShloMosaic Idealize.ShloMosaic.ValueIdx

/-! ## The two constants -/

/-- The maxima start from the bottom element. -/
theorem negInf_eq : negInf = ⊥ := by
  simp [negInf, Ideal.ofBits, Ideal.ieee]

/-- The scale is the real number 9/2. -/
theorem scale_eq : scale = ((9 / 2 : ℝ) : EReal) := by
  simp [scale, Ideal.ofBits, Ideal.ieee, -EReal.coe_mul]
  norm_num

/-! ## Finite sums and maxima of reals, read in the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum of two. -/
theorem coe_max (x y : ℝ) : ((max x y : ℝ) : EReal) = max (x : EReal) (y : EReal) :=
  EReal.coe_strictMono.monotone.map_max

/-- The maximum of a nonempty finite family of reals, folded from the bottom element, is a real. -/
theorem fold_max_real {ι : Type*} (s : Finset ι) (hs : s.Nonempty) (S : ι → EReal)
    (hS : ∀ j, ∃ r : ℝ, S j = (r : EReal)) :
    ∃ m : ℝ, s.fold max (⊥ : EReal) S = (m : EReal) := by
  classical
  induction s using Finset.induction_on with
  | empty => exact absurd hs Finset.not_nonempty_empty
  | insert a s ha ih =>
    obtain ⟨r, hr⟩ := hS a
    rw [Finset.fold_insert ha, hr]
    rcases s.eq_empty_or_nonempty with rfl | hne
    · exact ⟨r, by simp⟩
    · obtain ⟨m, hm⟩ := ih hne
      exact ⟨max r m, by rw [hm, coe_max]⟩

/-! ## The softmax law -/

/-- Over the reals: normalising each weight before the weighted sum, or dividing the weighted sum by the total. -/
theorem sum_div_mul {ι : Type*} [Fintype ι] (w e : ι → ℝ) (l : ℝ) :
    ∑ j, (w j / l) * e j = (∑ j, w j * e j) / l := by
  rw [Finset.sum_div]
  exact Finset.sum_congr rfl fun j _ => by ring

/-- The two arrangements of the result over real scores and real values, with the maxima as each arrangement
    computes them: normalising each weight before the weighted sum, or dividing the weighted sum by the total. -/
theorem attn_core {ι : Type*} [Fintype ι] [Nonempty ι] (S E : ι → EReal)
    (hS : ∀ j, ∃ r : ℝ, S j = (r : EReal)) (hE : ∀ j, ∃ r : ℝ, E j = (r : EReal)) :
    (∑ j, Ideal.div (Ideal.exp (S j - max ⊥ (Finset.univ.fold max ⊥ S)))
        (∑ j', Ideal.exp (S j' - max ⊥ (Finset.univ.fold max ⊥ S))) * E j)
      = Ideal.div (∑ j, Ideal.exp (S j - Finset.univ.fold max ⊥ S) * E j)
          (∑ j, Ideal.exp (S j - Finset.univ.fold max ⊥ S)) := by
  obtain ⟨m, hm⟩ := fold_max_real Finset.univ Finset.univ_nonempty S hS
  choose s hs using hS
  choose e he using hE
  rw [hm, max_eq_right bot_le]
  have hw : ∀ j, Ideal.exp (S j - (m : EReal)) = ((Real.exp (s j - m) : ℝ) : EReal) := fun j => by
    rw [hs, ← EReal.coe_sub, Ideal.exp_coe]
  have hpos : 0 < ∑ j, Real.exp (s j - m) :=
    Finset.sum_pos (fun j _ => Real.exp_pos _) Finset.univ_nonempty
  have hdiv : ∀ x : ℝ, Ideal.div (x : EReal) ((∑ j, Real.exp (s j - m) : ℝ) : EReal)
      = ((x / ∑ j, Real.exp (s j - m) : ℝ) : EReal) := fun x => by
    rw [Ideal.div_coe hpos.ne', ← EReal.coe_mul, mul_one_div]
  simp only [hw, he, ← coe_sum, ← EReal.coe_mul, hdiv]
  congr 1
  exact sum_div_mul (fun j => Real.exp (s j - m)) e _

/-! ## Scores -/

/-- A score over real queries and keys is a real. -/
theorem score_real (q k : Arr3) (hq : ∀ i, ∃ r : ℝ, q i = (r : EReal)) (hk : ∀ i, ∃ r : ℝ, k i = (r : EReal))
    (b : Fin 8) (p j : Fin 4096) : ∃ r : ℝ, score q k b p j = (r : EReal) := by
  choose qr hqr using hq
  choose kr hkr using hk
  refine ⟨∑ e : Fin 32, qr (ix3 b p e) * (9 / 2) * kr (ix3 b j e), ?_⟩
  rw [coe_sum]
  refine Finset.sum_congr rfl fun e _ => ?_
  rw [hqr, hkr, scale_eq, EReal.coe_mul, EReal.coe_mul]

/-- Over real queries and keys the scale may be applied to the finished product or folded into the query. -/
theorem refScore_eq (q k : Arr3) (hq : ∀ i, ∃ r : ℝ, q i = (r : EReal)) (hk : ∀ i, ∃ r : ℝ, k i = (r : EReal))
    (b : Fin 8) (p j : Fin 4096) : refScore q k b p j = score q k b p j := by
  choose qr hqr using hq
  choose kr hkr using hk
  have h1 : refScore q k b p j = (((∑ e : Fin 32, qr (ix3 b p e) * kr (ix3 b j e)) * (9 / 2) : ℝ) : EReal) := by
    rw [EReal.coe_mul, coe_sum, refScore, scale_eq]
    congr 1
    refine Finset.sum_congr rfl fun e _ => ?_
    rw [hqr, hkr, EReal.coe_mul]
  have h2 : score q k b p j = ((∑ e : Fin 32, qr (ix3 b p e) * (9 / 2) * kr (ix3 b j e) : ℝ) : EReal) := by
    rw [coe_sum]
    refine Finset.sum_congr rfl fun e _ => ?_
    rw [hqr, hkr, scale_eq, EReal.coe_mul, EReal.coe_mul]
  rw [h1, h2, Finset.sum_mul]
  congr 1
  exact Finset.sum_congr rfl fun e _ => by ring

/-! ## Codes and table rows -/

/-- A code in 0..9 is a word whose unsigned reading is below 10 and equals its signed reading. -/
theorem code_toNat {w : BitVec 32} (h : 0 ≤ w.toInt ∧ w.toInt < 10) : w.toInt = (w.toNat : ℤ) ∧ w.toNat < 10 := by
  have hlt := w.isLt
  have e := BitVec.toInt_eq_toNat_cond w
  split at e <;> omega

/-- A code in 0..9 is left alone by the move of the negative codes. -/
theorem wrapCode_eq {w : BitVec 32} (h : 0 ≤ w.toInt ∧ w.toInt < 10) : wrapCode w = w := by
  have hs : w.slt 0#32 = false := by
    simp only [BitVec.slt, BitVec.toInt_zero, decide_eq_false_iff_not, not_lt]
    exact h.1
  simp [wrapCode, IntOp.cmpi, hs, Scalar.select]

/-- The table row of a code in 0..9 is the code. -/
theorem rowOf_val {w : BitVec 32} (h : 0 ≤ w.toInt ∧ w.toInt < 10) : (rowOf w).val = w.toNat := by
  obtain ⟨h1, h2⟩ := code_toNat h
  simp only [rowOf, wrapCode_eq h]
  omega

/-- The one-hot weights of a code in 0..9 pick its own row out of any ten values. -/
theorem sum_onehot {w : BitVec 32} (h : 0 ≤ w.toInt ∧ w.toInt < 10) (t : Fin 10 → EReal) :
    ∑ i : Fin 10, onehot w i * t i = t (rowOf w) := by
  obtain ⟨_, h2⟩ := code_toNat h
  have hrow := rowOf_val h
  rw [Finset.sum_eq_single (rowOf w)]
  · have : w = BitVec.ofNat 32 (rowOf w).val := by
      apply BitVec.eq_of_toNat_eq
      rw [BitVec.toNat_ofNat, hrow]
      omega
    rw [onehot, if_pos this, one_mul]
  · intro i _ hi
    have : ¬ w = BitVec.ofNat 32 i.val := by
      intro hw
      apply hi
      apply Fin.ext
      rw [hrow, hw, BitVec.toNat_ofNat]
      have := i.isLt
      omega
    rw [onehot, if_neg this, zero_mul]
  · intro hn
    exact absurd (Finset.mem_univ _) hn

/-- The value row of a key whose code is in 0..9 is the table row of that code. -/
theorem valueRow_eq (v : Codes) (tab : Tab) (hv : ∀ i, 0 ≤ (v i).toInt ∧ (v i).toInt < 10)
    (b : Fin 8) (j : Fin 4096) (d : Fin 32) :
    valueRow v tab b j d = tab (ix2 (rowOf (v (ix2 b j))) d) :=
  sum_onehot (hv (ix2 b j)) fun i => tab (ix2 i d)

/-! ## The two arrangements agree -/

/-- With real queries, keys and table entries and every code in 0..9, the reference's arrangement and the kernel's
    arrangement are the same array. -/
theorem refAttn_eq_attn (q k : Arr3) (v : Codes) (tab : Tab)
    (hq : ∀ i, ∃ r : ℝ, q i = (r : EReal)) (hk : ∀ i, ∃ r : ℝ, k i = (r : EReal))
    (hv : ∀ i, 0 ≤ (v i).toInt ∧ (v i).toInt < 10) (htab : ∀ i, ∃ r : ℝ, tab i = (r : EReal)) :
    refAttn q k v tab = attn q k v tab := by
  funext i
  have h1 : ∀ j, refScore q k (i 0) (i 1) j = score q k (i 0) (i 1) j := refScore_eq q k hq hk (i 0) (i 1)
  have h2 : ∀ j, valueRow v tab (i 0) j (i 2) = tab (ix2 (rowOf (v (ix2 (i 0) j))) (i 2)) :=
    fun j => valueRow_eq v tab hv (i 0) j (i 2)
  simp only [refAttn, attn, refWeight, weight, refRowMax, rowMax, h1, h2, negInf_eq]
  exact attn_core (fun j => score q k (i 0) (i 1) j) (fun j => tab (ix2 (rowOf (v (ix2 (i 0) j))) (i 2)))
    (fun j => score_real q k hq hk (i 0) (i 1) j) (fun j => htab _)

end Cert.Attn

end
-- ==== Proof.lean ====
/-
  Single-pass softmax attention over embedded integer codes, against its jnp reference, over the extended reals.

  Both programs take queries q and keys k of shape [8, 4096, 32], integer codes v of shape [8, 4096] and a value
  table of shape [10, 32], and return, for batch b, query row p and feature d,

      Σ j, softmax_j (4.5 · ⟨q b p, k b j⟩) · table (v b j) d.

  The kernel walks a grid of 8 batches by 8 query tiles. At a batch's first tile it forms the value rows
  table (v b j) as the product of the one-hot weights [v b j = i] with the table and keeps them in a scratch for the
  batch's other tiles; it folds the scale into q, takes the row maximum M of the scores S, the weights
  W = exp (S − M), and stores (Σ j, W j · row j) / (Σ j, W j). The reference gathers the rows, scales the finished
  scores, normalises each weight by the total first and sums afterwards.

  The two agree where every entry of q, k and the table is a real number and every code lies in 0..9 (the
  precondition): the scores agree by distributivity over the reals; both maxima are the maximum of 4096 reals, a
  real; the weights are positive reals, so is their total, and dividing each weight by it before the weighted sum
  or the sum after it is the same number; for a code in range the one-hot weights select exactly the gathered row
  (outside the range the one-hot row is zero while the gather clamps, which is why the range is assumed).

  The parts: Spec (both arrangements as functions of the arrays), KPieces / KPay / KBlock / KValue (the kernel's
  result array is the first arrangement), RefRead (the reference's result is the second), PreFacts (the
  precondition gives real entries and codes in range), AttnAlgebra (the two arrangements agree there).
-/
import proofs.«426676_j39676907884462_2_alg».proof.Defs
import proofs.«426676_j39676907884462_2_alg».proof.Proof.Gen.Kernel
import proofs.«426676_j39676907884462_2_alg».proof.Proof.Gen.Kernel.Skeleton
import proofs.«426676_j39676907884462_2_alg».proof.Proof.Gen.Kernel.Launch
import proofs.«426676_j39676907884462_2_alg».proof.Proof.Gen.Kernel.Points
import proofs.«426676_j39676907884462_2_alg».proof.Proof.Gen.Kernel.Frame
import proofs.«426676_j39676907884462_2_alg».proof.Proof.Gen.KernelIdeal
import proofs.«426676_j39676907884462_2_alg».proof.Proof.Gen.KernelIdeal.Skeleton
import proofs.«426676_j39676907884462_2_alg».proof.Proof.Gen.KernelIdeal.Launch
import proofs.«426676_j39676907884462_2_alg».proof.Proof.Gen.KernelIdeal.Points
import proofs.«426676_j39676907884462_2_alg».proof.Proof.Gen.KernelIdeal.Frame
import proofs.«426676_j39676907884462_2_alg».proof.Proof.Gen.KernelIdeal.Value
import proofs.«426676_j39676907884462_2_alg».proof.Proof.Gen.ReferenceIdeal
import proofs.«426676_j39676907884462_2_alg».proof.Proof.Gen.ReferenceIdeal.Run
import proofs.«426676_j39676907884462_2_alg».proof.Proof.Gen.ReferenceIdeal.Read
import proofs.«426676_j39676907884462_2_alg».proof.Proof.Gen.Pre_finite_inputs
import proofs.«426676_j39676907884462_2_alg».proof.Proof.KValue
import proofs.«426676_j39676907884462_2_alg».proof.Proof.RefRead
import proofs.«426676_j39676907884462_2_alg».proof.Proof.PreFacts
import proofs.«426676_j39676907884462_2_alg».proof.Proof.AttnAlgebra
import Idealize.ShloMosaic.Adequacy
import Idealize.ShloMosaic.Init

noncomputable section

namespace Cert.Proof

open Idealize.ShloMosaic Idealize.SL.Sem

/-- The word-level kernel runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From memories that agree on the arguments, under the precondition, the kernel's result array ends at the
    attention function in the kernel's arrangement and the reference's at the reference's arrangement of the same
    arguments; where the entries are real and the codes in range the two arrangements are one function. -/
theorem algebraic : Cert.algebraic_KernelIdeal_ReferenceIdeal := by
  intro m ρ m' ρ' hpre hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv, htab⟩ := Cert.PreFacts.of_pre _ _ _ _ (hpre c)
  refine (Cert.ReferenceIdeal.Read.val_main_v21_eq _ _ _ _).trans ?_
  refine (Cert.ReferenceIdeal.AttnRef.ref_eq _ _ _ _).trans ?_
  rw [(hagree c).1, (hagree c).2.1, (hagree c).2.2.1, (hagree c).2.2.2]
  exact Cert.Attn.refAttn_eq_attn _ _ _ _ hq hk hv htab

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
